-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x16384 : Shape := ⟨3, ![16, 128, 16384]⟩
abbrev S16x256 : Shape := ⟨2, ![16, 256]⟩
abbrev S128x128x1 : Shape := ⟨3, ![128, 128, 1]⟩
abbrev S128x256 : Shape := ⟨2, ![128, 256]⟩
abbrev S128 : Shape := ⟨1, ![128]⟩
abbrev S_ : Shape := ⟨0, ![]⟩

class Facts : Prop where
  bcast_S_S16x128x16384 : S_.BroadcastsInDim S16x128x16384 (![] : Fin 0 → Fin S16x128x16384.rank)
  reducesTo_S16x128x16384_S_d0_1_2 : S16x128x16384.ReducesTo [0, 1, 2] S_
  h_S_ : 0 < S_.numel
  bcast_S_S16x256 : S_.BroadcastsInDim S16x256 (![] : Fin 0 → Fin S16x256.rank)
  reducesTo_S16x256_S_d0_1 : S16x256.ReducesTo [0, 1] S_
  bcast_S_S128x128x1 : S_.BroadcastsInDim S128x128x1 (![] : Fin 0 → Fin S128x128x1.rank)
  reducesTo_S128x128x1_S_d0_1_2 : S128x128x1.ReducesTo [0, 1, 2] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S16x128x16384 .f32) (main_arg1 : FVec F S16x256 .f32) (main_arg2 : FVec F S128x128x1 .f32) (main_arg3 : FVec F S128x256 .f32) (main_arg4 : FVec F S128 .f32) : IVec S_ 1 :=
  let main_v0 : FVec F S16x128x16384 .f32 := Host.absf main_arg0
  let main_cst : FVec F S_ .f32 := constant S_ .f32 0x7F800000#32
  let main_v1 : FVec F S16x128x16384 .f32 := broadcastInDim S16x128x16384 ![] bcast_S_S16x128x16384 main_cst
  let main_v2 : IVec S16x128x16384 1 := cmpf .olt main_v0 main_v1
  let main_c : IVec S_ 1 := constantI S_ 1 1#1
  let main_v3 : IVec S_ 1 := (fun x v => Host.reduce IntOp.andi x v reducesTo_S16x128x16384_S_d0_1_2 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S128x128x1 .f32 := Host.absf main_arg2
  let main_cst_2 : FVec F S_ .f32 := constant S_ .f32 0x7F800000#32
  let main_v10 : FVec F S128x128x1 .f32 := broadcastInDim S128x128x1 ![] bcast_S_S128x128x1 main_cst_2
  let main_v11 : IVec S128x128x1 1 := cmpf .olt main_v9 main_v10
  let main_c_3 : IVec S_ 1 := constantI S_ 1 1#1
  let main_v12 : IVec S_ 1 := (fun x v => Host.reduce IntOp.andi x v reducesTo_S128x128x1_S_d0_1_2 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_v13 main_v16
-- ==== Kernel.lean ====
abbrev S16x128x16384 : Shape := ⟨3, ![16, 128, 16384]⟩
abbrev S16x256 : Shape := ⟨2, ![16, 256]⟩
abbrev S128x128x1 : Shape := ⟨3, ![128, 128, 1]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S16x128x128 : Shape := ⟨3, ![16, 128, 128]⟩
abbrev S256x128 : Shape := ⟨2, ![256, 128]⟩
abbrev S16x128 : Shape := ⟨2, ![16, 128]⟩
abbrev S1x128x128 : Shape := ⟨3, ![1, 128, 128]⟩
abbrev S16x1x128 : Shape := ⟨3, ![16, 1, 128]⟩
abbrev S16x128x1 : Shape := ⟨3, ![16, 128, 1]⟩
abbrev S1x128x4096 : Shape := ⟨3, ![1, 128, 4096]⟩
abbrev S128x4096 : Shape := ⟨2, ![128, 4096]⟩

abbrev nBuf : Space → Nat
  | .hbm => 9
  | .vmem => 11
  | .smem => 0
  | _ => 0

abbrev bufTy : (tb : Table) → Fin (tcTables nBuf tb) → BufTy
  | .hbm, ⟨0, _⟩ => ⟨S16x128x16384, .f32⟩
  | .hbm, ⟨1, _⟩ => ⟨S16x256, .f32⟩
  | .hbm, ⟨2, _⟩ => ⟨S128x128x1, .f32⟩
  | .hbm, ⟨3, _⟩ => ⟨S128x256, .f32⟩
  | .hbm, ⟨4, _⟩ => ⟨S128, .f32⟩
  | .hbm, ⟨5, _⟩ => ⟨S128x128, .f32⟩
  | .hbm, ⟨6, _⟩ => ⟨S1x128, .f32⟩
  | .hbm, ⟨7, _⟩ => ⟨S16x128x128, .f32⟩
  | .hbm, ⟨8, _⟩ => ⟨S16x128x16384, .f32⟩
  | .local _ .vmem, ⟨0, _⟩ => ⟨S16x256, .f32⟩
  | .local _ .vmem, ⟨1, _⟩ => ⟨S128x256, .f32⟩
  | .local _ .vmem, ⟨2, _⟩ => ⟨S1x128, .f32⟩
  | .local _ .vmem, ⟨3, _⟩ => ⟨S128x128, .f32⟩
  | .local _ .vmem, ⟨4, _⟩ => ⟨S16x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x4096, .f32⟩
  | .local _ .vmem, ⟨8, _⟩ => ⟨S1x128x4096, .f32⟩
  | .local _ .vmem, ⟨9, _⟩ => ⟨S1x128x4096, .f32⟩
  | .local _ .vmem, ⟨10, _⟩ => ⟨S1x128x4096, .f32⟩
  | _, _ => ⟨S16x128x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x128x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S128x128x1_S128x128 : S128x128x1.ShapeCasts S128x128
  shapeCasts_S128_S1x128 : S128.ShapeCasts S1x128
  inb_S16x256_S16x256_0_0 : ∀ a, (![0, 0] : Fin 2 → Nat) a + S16x256.size a ≤ S16x256.size a
  h_S16x256 : 0 < S16x256.numel
  inb_S128x256_S128x256_0_0 : ∀ a, (![0, 0] : Fin 2 → Nat) a + S128x256.size a ≤ S128x256.size a
  h_S128x256 : 0 < S128x256.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x256_p1_0_S256x128 : S128x256.Transposes [1, 0] S256x128
  broadcasts_S1x128_S16x128 : S1x128.Broadcasts S16x128
  shapeCasts_S128x128_S1x128x128 : S128x128.ShapeCasts S1x128x128
  shapeCasts_S16x128_S16x1x128 : S16x128.ShapeCasts S16x1x128
  broadcasts_S1x128x128_S16x128x128 : S1x128x128.Broadcasts S16x128x128
  broadcasts_S16x1x128_S16x128x128 : S16x1x128.Broadcasts S16x128x128
  reduces_S16x128x128_S16x128 : S16x128x128.Reduces [2] S16x128
  shapeCasts_S16x128_S16x128x1 : S16x128.ShapeCasts S16x128x1
  broadcasts_S16x128x1_S16x128x128 : S16x128x1.Broadcasts S16x128x128
  inb_S16x128x128_S16x128x128_0_0_0 : ∀ a, (![0, 0, 0] : Fin 3 → Nat) a + S16x128x128.size a ≤ S16x128x128.size a
  h_S16x128x128 : 0 < S16x128x128.numel
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  bitsLt_bf16_f32 : FTy.bits .bf16 < FTy.bits .f32
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  shapeCasts_S128x4096_S1x128x4096 : S128x4096.ShapeCasts S1x128x4096
  dot_S16x256_S256x128_S16x128_1_0_0_1_n_n_wf : DotDims.WF S16x256 S256x128 S16x128 [1] [0] [0] [1] [] []
  dot_S128x128_S128x4096_S128x4096_1_0_0_1_n_n_wf : DotDims.WF S128x128 S128x4096 S128x4096 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x256.size a ≤ S16x256.size a
  hwx0_0 : ∀ i : grid0.Coords, EltTy.bits .f32 = 32 ∨ (Rect.block (s := S16x256) S16x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x128x128.size a ≤ S16x128x128.size a
  hwx0_4 : ∀ i : grid0.Coords, EltTy.bits .f32 = 32 ∨ (Rect.block (s := S16x128x128) S16x128x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x128.size a ≤ S16x128x128.size a
  hwx1_0 : ∀ i : grid1.Coords, EltTy.bits .f32 = 32 ∨ (Rect.block (s := S16x128x128) S1x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x4096.size a ≤ S16x128x16384.size a
  hwx1_1 : ∀ i : grid1.Coords, EltTy.bits .f32 = 32 ∨ (Rect.block (s := S16x128x16384) S1x128x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x4096.size a ≤ S16x128x16384.size a
  hwx1_2 : ∀ i : grid1.Coords, EltTy.bits .f32 = 32 ∨ (Rect.block (s := S16x128x16384) S1x128x4096.size (cc1_transform_2 i) (hinb1_2 i)).WholeWords (EltTy.packing .f32)

variable [Facts₀]

def dot_S16x256_S256x128_S16x128_1_0_0_1_n_n : DotDims S16x256 S256x128 S16x128 where
  lhsContracting := [1]
  rhsContracting := [0]
  lhsNonContracting := [0]
  rhsNonContracting := [1]
  lhsBatch := []
  rhsBatch := []
  wf := dot_S16x256_S256x128_S16x128_1_0_0_1_n_n_wf
def dot_S128x128_S128x4096_S128x4096_1_0_0_1_n_n : DotDims S128x128 S128x4096 S128x4096 where
  lhsContracting := [1]
  rhsContracting := [0]
  lhsNonContracting := [0]
  rhsNonContracting := [1]
  lhsBatch := []
  rhsBatch := []
  wf := dot_S128x128_S128x4096_S128x4096_1_0_0_1_n_n_wf

abbrev win0_0 : Pipeline.Window sig grid0 :=
  Pipeline.Window.ofSpec (Memref.whole main_arg1) S16x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S16x128x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2) S1x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x128x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x128x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x128x16384 : Shape := ⟨3, ![16, 128, 16384]⟩
abbrev S16x256 : Shape := ⟨2, ![16, 256]⟩
abbrev S128x128x1 : Shape := ⟨3, ![128, 128, 1]⟩
abbrev S128x256 : Shape := ⟨2, ![128, 256]⟩
abbrev S128 : Shape := ⟨1, ![128]⟩
abbrev S256x128 : Shape := ⟨2, ![256, 128]⟩
abbrev S16x128 : Shape := ⟨2, ![16, 128]⟩
abbrev S1x128 : Shape := ⟨2, ![1, 128]⟩
abbrev S_ : Shape := ⟨0, ![]⟩
abbrev S128x128 : Shape := ⟨2, ![128, 128]⟩
abbrev S1x128x128 : Shape := ⟨3, ![1, 128, 128]⟩
abbrev S16x1x128 : Shape := ⟨3, ![16, 1, 128]⟩
abbrev S16x128x128 : Shape := ⟨3, ![16, 128, 128]⟩
abbrev S16x128x1 : Shape := ⟨3, ![16, 128, 1]⟩

abbrev nBuf : Space → Nat
  | .hbm => 30
  | .vmem => 0
  | .smem => 0
  | _ => 0

abbrev bufTy : (tb : Table) → Fin (tcTables nBuf tb) → BufTy
  | .hbm, ⟨0, _⟩ => ⟨S16x128x16384, .f32⟩
  | .hbm, ⟨1, _⟩ => ⟨S16x256, .f32⟩
  | .hbm, ⟨2, _⟩ => ⟨S128x128x1, .f32⟩
  | .hbm, ⟨3, _⟩ => ⟨S128x256, .f32⟩
  | .hbm, ⟨4, _⟩ => ⟨S128, .f32⟩
  | .hbm, ⟨5, _⟩ => ⟨S256x128, .f32⟩
  | .hbm, ⟨6, _⟩ => ⟨S16x128, .f32⟩
  | .hbm, ⟨7, _⟩ => ⟨S1x128, .f32⟩
  | .hbm, ⟨8, _⟩ => ⟨S16x128, .f32⟩
  | .hbm, ⟨9, _⟩ => ⟨S16x128, .f32⟩
  | .hbm, ⟨10, _⟩ => ⟨S_, .f32⟩
  | .hbm, ⟨11, _⟩ => ⟨S16x128, .f32⟩
  | .hbm, ⟨12, _⟩ => ⟨S16x128, .f32⟩
  | .hbm, ⟨13, _⟩ => ⟨S128x128, .f32⟩
  | .hbm, ⟨14, _⟩ => ⟨S1x128x128, .f32⟩
  | .hbm, ⟨15, _⟩ => ⟨S16x1x128, .f32⟩
  | .hbm, ⟨16, _⟩ => ⟨S16x128x128, .f32⟩
  | .hbm, ⟨17, _⟩ => ⟨S16x128x128, .f32⟩
  | .hbm, ⟨18, _⟩ => ⟨S16x128x128, .f32⟩
  | .hbm, ⟨19, _⟩ => ⟨S16x128x128, .f32⟩
  | .hbm, ⟨20, _⟩ => ⟨S_, .f32⟩
  | .hbm, ⟨21, _⟩ => ⟨S16x128, .f32⟩
  | .hbm, ⟨22, _⟩ => ⟨S_, .f32⟩
  | .hbm, ⟨23, _⟩ => ⟨S16x128, .f32⟩
  | .hbm, ⟨24, _⟩ => ⟨S16x128, .f32⟩
  | .hbm, ⟨25, _⟩ => ⟨S16x128, .f32⟩
  | .hbm, ⟨26, _⟩ => ⟨S16x128x1, .f32⟩
  | .hbm, ⟨27, _⟩ => ⟨S16x128x128, .f32⟩
  | .hbm, ⟨28, _⟩ => ⟨S16x128x128, .f32⟩
  | .hbm, ⟨29, _⟩ => ⟨S16x128x16384, .f32⟩
  | _, _ => ⟨S16x128x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  transposes_S128x256_S256x128_1_0 : S128x256.Transposes [1, 0] S256x128
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  bcast_S_S16x128 : S_.BroadcastsInDim S16x128 (![] : Fin 0 → Fin S16x128.rank)
  shapeCasts_S128x128x1_S128x128 : S128x128x1.ShapeCasts S128x128
  bcast_S128x128_S1x128x128_1_2 : S128x128.BroadcastsInDim S1x128x128 (![1, 2] : Fin 2 → Fin S1x128x128.rank)
  bcast_S16x128_S16x1x128_0_2 : S16x128.BroadcastsInDim S16x1x128 (![0, 2] : Fin 2 → Fin S16x1x128.rank)
  bcast_S1x128x128_S16x128x128_0_1_2 : S1x128x128.BroadcastsInDim S16x128x128 (![0, 1, 2] : Fin 3 → Fin S16x128x128.rank)
  bcast_S16x1x128_S16x128x128_0_1_2 : S16x1x128.BroadcastsInDim S16x128x128 (![0, 1, 2] : Fin 3 → Fin S16x128x128.rank)
  reducesTo_S16x128x128_S16x128_d2 : S16x128x128.ReducesTo [2] S16x128
  h_S_ : 0 < S_.numel
  bcast_S16x128_S16x128x1_0_1 : S16x128.BroadcastsInDim S16x128x1 (![0, 1] : Fin 2 → Fin S16x128x1.rank)
  bcast_S16x128x1_S16x128x128_0_1_2 : S16x128x1.BroadcastsInDim S16x128x128 (![0, 1, 2] : Fin 3 → Fin S16x128x128.rank)
  dot_S16x256_S256x128_S16x128_1_0_0_1_n_n_wf : DotDims.WF S16x256 S256x128 S16x128 [1] [0] [0] [1] [] []
  dot_S16x128x128_S16x128x16384_S16x128x16384_2_1_1_2_0_0_wf : DotDims.WF S16x128x128 S16x128x16384 S16x128x16384 [2] [1] [1] [2] [0] [0]

variable [Facts₀]

def dot_S16x256_S256x128_S16x128_1_0_0_1_n_n : DotDims S16x256 S256x128 S16x128 where
  lhsContracting := [1]
  rhsContracting := [0]
  lhsNonContracting := [0]
  rhsNonContracting := [1]
  lhsBatch := []
  rhsBatch := []
  wf := dot_S16x256_S256x128_S16x128_1_0_0_1_n_n_wf
def dot_S16x128x128_S16x128x16384_S16x128x16384_2_1_1_2_0_0 : DotDims S16x128x128 S16x128x16384 S16x128x16384 where
  lhsContracting := [2]
  rhsContracting := [1]
  lhsNonContracting := [1]
  rhsNonContracting := [2]
  lhsBatch := [0]
  rhsBatch := [0]
  wf := dot_S16x128x128_S16x128x16384_S16x128x16384_2_1_1_2_0_0_wf

class Facts : Prop extends Facts₀ where

variable [Facts]
-- ==== Proof.Spec.lean ====
/-
  The modulated pointwise convolution, entry by entry over the extended reals.

  From a style matrix `t` [16, 256], a modulation matrix `mw` [128, 256], a bias row `mb` [1, 128] and a kernel matrix
  `cw` [128, 128] (output channel o, input channel i):
    scale (b, i)     = (sum over k of t (b, k) * mw (i, k)) + mb (0, i) + 1
    raw (b, o, i)    = cw (o, i) * scale (b, i)
    sumsq (b, o)     = sum over i of raw (b, o, i) * raw (b, o, i)
    weight (b, o, i) = raw (b, o, i) * rsqrt (sumsq (b, o) + eps)
  and the convolution of a sample `x` [16, 128, 16384] with its own weights is, at (b, o, l), the sum over i of
  weight (b, o, i) * x (b, i, l). The two float literals are kept as the words both programs print.
-/
import Idealize.ShloMosaic.PureOps.Ideal
import Idealize.ShloMosaic.Lib.ValueIdx

noncomputable section

namespace Cert.ModConv

open Idealize.ShloMosaic Idealize.ShloMosaic.ValueIdx

/-- The literal 1.0. -/
abbrev one : EReal := Ideal.ofBits .f32 0x3F800000#32
/-- The literal added under the reciprocal square root (the f32 nearest 1e-8). -/
abbrev eps : EReal := Ideal.ofBits .f32 0x322BCC77#32

section Weights
variable (t : FVec Ideal ⟨2, ![16, 256]⟩ .f32) (mw : FVec Ideal ⟨2, ![128, 256]⟩ .f32)
  (mb : FVec Ideal ⟨2, ![1, 128]⟩ .f32) (cw : FVec Ideal ⟨2, ![128, 128]⟩ .f32)

/-- The style's scale of input channel `i` for sample `b`. -/
def scaleAt (b : Fin 16) (i : Fin 128) : EReal :=
  (∑ k : Fin 256, t (ix2 b k) * mw (ix2 i k)) + mb (ix2 (0 : Fin 1) i) + one

/-- The modulated, not yet normalised, weight. -/
def rawAt (b : Fin 16) (o i : Fin 128) : EReal := cw (ix2 o i) * scaleAt t mw mb b i

/-- The squared length of output channel `o`'s modulated weights. -/
def sumsqAt (b : Fin 16) (o : Fin 128) : EReal := ∑ i : Fin 128, rawAt t mw mb cw b o i * rawAt t mw mb cw b o i

/-- The normalised weight. -/
def weightAt (b : Fin 16) (o i : Fin 128) : EReal :=
  rawAt t mw mb cw b o i * Ideal.rsqrt (sumsqAt t mw mb cw b o + eps)

/-- The per-sample weights as one array. -/
def weights : FVec Ideal ⟨3, ![16, 128, 128]⟩ .f32 := fun j => weightAt t mw mb cw (j 0) (j 1) (j 2)

theorem weights_ix3 (b : Fin 16) (o i : Fin 128) : weights t mw mb cw (ix3 b o i) = weightAt t mw mb cw b o i := rfl

end Weights

/-- Each sample convolved (kernel size one) with its own weights. -/
def conv (w : FVec Ideal ⟨3, ![16, 128, 128]⟩ .f32) (x : FVec Ideal ⟨3, ![16, 128, 16384]⟩ .f32) :
    FVec Ideal ⟨3, ![16, 128, 16384]⟩ .f32 :=
  fun j => ∑ i : Fin 128, w (ix3 (j 0) (j 1) i) * x (ix3 (j 0) i (j 2))

theorem conv_ix3 (w : FVec Ideal ⟨3, ![16, 128, 128]⟩ .f32) (x : FVec Ideal ⟨3, ![16, 128, 16384]⟩ .f32)
    (b : Fin 16) (o : Fin 128) (l : Fin 16384) :
    conv w x (ix3 b o l) = ∑ i : Fin 128, w (ix3 b o i) * x (ix3 b i l) := rfl

/-- The bias vector as the one-row matrix both programs make of it. -/
def biasRow (mb : FVec Ideal ⟨1, ![128]⟩ .f32) : FVec Ideal ⟨2, ![1, 128]⟩ .f32 := fun j => mb (ix1 (j 1))

/-- The convolution's weight array [128, 128, 1] as the matrix both programs make of it. -/
def kernelMat (cw : FVec Ideal ⟨3, ![128, 128, 1]⟩ .f32) : FVec Ideal ⟨2, ![128, 128]⟩ .f32 :=
  fun j => cw (ix3 (j 0) (j 1) (0 : Fin 1))

/-- THE RESULT as one function of the five argument arrays. -/
def result (x : FVec Ideal ⟨3, ![16, 128, 16384]⟩ .f32) (t : FVec Ideal ⟨2, ![16, 256]⟩ .f32)
    (cw : FVec Ideal ⟨3, ![128, 128, 1]⟩ .f32) (mw : FVec Ideal ⟨2, ![128, 256]⟩ .f32) (mb : FVec Ideal ⟨1, ![128]⟩ .f32) :
    FVec Ideal ⟨3, ![16, 128, 16384]⟩ .f32 :=
  conv (weights t mw (biasRow mb) (kernelMat cw)) x

end Cert.ModConv

end
-- ==== Proof.LibMatmulPlain.lean ====
/-
  A plain matrix product read at an index. For dimension numbers that contract axis 1 of an [M, K] left operand with
  axis 0 of a [K, N] right operand (no batch axes), a `tpu.matmul` into the zero accumulator, over the extended reals,
  has at (p, q) the sum over k of left (p, k) times right (k, q).
-/
import Idealize.ShloMosaic.Lib.ValueIdx
import Idealize.ShloMosaic.PureOps.Ideal.Laws

noncomputable section

namespace Cert.LibMatmulPlain

open Idealize.ShloMosaic Idealize.ShloMosaic.ValueIdx

variable {M K N : Nat}

/-- The dimension numbers of a plain product, as a record over its well-formedness evidence. -/
abbrev plainDims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ := ⟨[1], [0], [0], [1], [], [], wf⟩

variable (wf : DotDims.WF (⟨2, ![M, K]⟩ : Shape) ⟨2, ![K, N]⟩ ⟨2, ![M, N]⟩ [1] [0] [0] [1] [] [])

theorem lhs_axis0 (j : (⟨2, ![M, N]⟩ : Shape).Idx) (q : (plainDims wf).contr.Idx) :
    ((plainDims wf).lhsIdx j q 0).val = (j 0).val := by
  unfold DotDims.lhsIdx
  rw [dif_neg (show ¬(0 : Fin (⟨2, ![M, K]⟩ : Shape).rank) ∈ (plainDims wf).lhsBatch from List.not_mem_nil),
    dif_pos (show (0 : Fin (⟨2, ![M, K]⟩ : Shape).rank) ∈ (plainDims wf).lhsNonContracting from List.mem_singleton.mpr rfl)]
  rfl
theorem lhs_axis1 (j : (⟨2, ![M, N]⟩ : Shape).Idx) (q : (plainDims wf).contr.Idx) :
    ((plainDims wf).lhsIdx j q 1).val = (q ⟨0, Nat.one_pos⟩).val :=
  (plainDims wf).lhsIdx_val_of_single rfl j q
theorem rhs_axis0 (j : (⟨2, ![M, N]⟩ : Shape).Idx) (q : (plainDims wf).contr.Idx) :
    ((plainDims wf).rhsIdx j q 0).val = (q ⟨0, Nat.one_pos⟩).val :=
  (plainDims wf).rhsIdx_val_of_single rfl j q
theorem rhs_axis1 (j : (⟨2, ![M, N]⟩ : Shape).Idx) (q : (plainDims wf).contr.Idx) :
    ((plainDims wf).rhsIdx j q 1).val = (j 1).val := by
  unfold DotDims.rhsIdx
  rw [dif_neg (show ¬(1 : Fin (⟨2, ![K, N]⟩ : Shape).rank) ∈ (plainDims wf).rhsBatch from List.not_mem_nil),
    dif_pos (show (1 : Fin (⟨2, ![K, N]⟩ : Shape).rank) ∈ (plainDims wf).rhsNonContracting from List.mem_singleton.mpr rfl)]
  rfl

/-- THE PRODUCT AT (p, q), into the zero accumulator: the sum over the contracted coordinate. -/
theorem matmul_zero_plain_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (plainDims wf) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k := funext fun a => Fin.ext (by
    match a with
    | ⟨0, _⟩ => exact lhs_axis0 wf _ _
    | ⟨1, _⟩ => exact (lhs_axis1 wf _ _).trans hk)
  have er : (plainDims wf).rhsIdx (ix2 p q) ((contrEquiv1 (plainDims wf) K rfl rfl).symm k) = ix2 k q := funext fun a => Fin.ext (by
    match a with
    | ⟨0, _⟩ => exact (rhs_axis0 wf _ _).trans hk
    | ⟨1, _⟩ => exact rhs_axis1 wf _ _)
  rw [el, er]

end Cert.LibMatmulPlain

end
-- ==== Proof.LibRank3.lean ====
/-
  Rank-3 arrays read at an index given by coordinates.

  Layout: an `[a, b]` array viewed as `[a, b, 1]` or as `[a, 1, c]`, and those two laid along the missing axis of an
  `[a, b, c]` array.  Reductions over the extended reals: the sum along the last axis of an `[a, b, c]` array, its minimum
  along the last axis and along the middle axis (each a fold of `min` over that axis's coordinates from the accumulator
  word's value), and the product of an `[B, M, K]` array with an `[B, N, K]` array that is batched over the first axis and
  contracts the LAST axis of both: at (b, p, q) the sum over k of left (b, p, k) times right (b, q, k).
-/
import Idealize.ShloMosaic.Lib.Pipeline.Value
import Idealize.ShloMosaic.Lib.ValueIdx
import Idealize.ShloMosaic.PureOps.Ideal.Laws
import Idealize.ShloMosaic.PureOps.Reduce

noncomputable section

namespace Cert.Rank3

open Idealize.ShloMosaic Idealize.ShloMosaic.ValueIdx

/-! ## Layout -/

section Layout
variable {α : Type} {a b c : ℕ}

/-- An `[a, b]` array viewed as `[a, b, 1]` reads, at `(p, q, u)`, the operand at `(p, q)`. -/
theorem shapeCast_ab_ab1_apply (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, c]` array viewed as `[a, 1, c]` reads, at `(p, u, r)`, the operand at `(p, r)`. -/
theorem shapeCast_ac_a1c_apply (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_two, Shape.rowMajor_val_three]
    show p.val * c + r.val = (p.val * 1 + u.val) * c + r.val
    rw [hu, Nat.mul_one, Nat.add_zero])

/-- An `[a, b, 1]` array laid along the last axis of `[a, b, c]` reads, at `(p, q, r)`, its entry `(p, q, 0)`. -/
theorem broadcastTo_ab1_abc_apply (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An `[a, 1, c]` array laid along the middle axis of `[a, b, c]` reads, at `(p, q, r)`, its entry `(p, 0, r)`. -/
theorem broadcastTo_a1c_abc_apply (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

end Layout

/-! ## Reductions along one axis, over the extended reals -/

section Reduce
variable {φ : FTy} {a b c : ℕ}

/-- The sum along the last axis at `(p, q)`: the sum over `k` of the entries `(p, q, k)`. -/
theorem sum_last_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (funext fun ax => Fin.ext (by
      match ax with | ⟨0, _⟩ => rfl | ⟨1, _⟩ => rfl | ⟨2, _⟩ => rfl)))

/-- A minimum along one axis, at a result index: the fold of `min` from the accumulator word's value over that axis's
    coordinates. -/
theorem min_single {s t : Shape} {ax : Fin s.rank} (src : FVec Ideal s φ) (acc : BitVec φ.bits) (h : s.Reduces [ax] t)
    (hφ : FKind.Formats φ) (hacc : acc = FKind.minimumf.neutral φ hφ) (j : t.Idx) :
    multiReduction .minimumf [ax] t src acc h hφ hacc j
      = (Finset.univ : Finset (Fin (s.size ax))).fold min (Ideal.ofBits φ acc) (src ∘ h.lift j) := by
  rw [multiReduction_minimumf_eq_fold]; exact h.fold_filter_drop_single _ _ src j

/-- The minimum along the last axis at `(p, q)`: the least of the entries `(p, q, k)` and the accumulator word's value. -/
theorem min_last_apply (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.minimumf.neutral φ hφ) (p : Fin a) (q : Fin b) :
    multiReduction .minimumf [2] ⟨2, ![a, b]⟩ src acc h hφ hacc (ix2 p q)
      = Finset.univ.fold min (Ideal.ofBits φ acc) fun k : Fin c => src (ix3 p q k) :=
  (min_single src acc h hφ hacc (ix2 p q)).trans
    (Finset.fold_congr fun k _ => congrArg src (funext fun ax => Fin.ext (by
      match ax with | ⟨0, _⟩ => rfl | ⟨1, _⟩ => rfl | ⟨2, _⟩ => rfl)))

/-- The minimum along the middle axis at `(p, r)`: the least of the entries `(p, k, r)` and the accumulator word's value. -/
theorem min_mid_apply (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.minimumf.neutral φ hφ) (p : Fin a) (r : Fin c) :
    multiReduction .minimumf [1] ⟨2, ![a, c]⟩ src acc h hφ hacc (ix2 p r)
      = Finset.univ.fold min (Ideal.ofBits φ acc) fun k : Fin b => src (ix3 p k r) :=
  (min_single src acc h hφ hacc (ix2 p r)).trans
    (Finset.fold_congr fun k _ => congrArg src (funext fun ax => Fin.ext (by
      match ax with | ⟨0, _⟩ => rfl | ⟨1, _⟩ => rfl | ⟨2, _⟩ => rfl)))

end Reduce

/-! ## The batched product that contracts the last axis of both operands -/

section Product
variable {B M N K : ℕ}

/-- Its dimension numbers, as a record over their well-formedness evidence. -/
abbrev lastDims (wf : DotDims.WF (⟨3, ![B, M, K]⟩ : Shape) ⟨3, ![B, N, K]⟩ ⟨3, ![B, M, N]⟩ [2] [2] [1] [1] [0] [0]) :
    DotDims (⟨3, ![B, M, K]⟩ : Shape) ⟨3, ![B, N, K]⟩ ⟨3, ![B, M, N]⟩ := ⟨[2], [2], [1], [1], [0], [0], wf⟩

variable (wf : DotDims.WF (⟨3, ![B, M, K]⟩ : Shape) ⟨3, ![B, N, K]⟩ ⟨3, ![B, M, N]⟩ [2] [2] [1] [1] [0] [0])

theorem lhs_axis0 (j : (⟨3, ![B, M, N]⟩ : Shape).Idx) (q : (lastDims wf).contr.Idx) :
    ((lastDims wf).lhsIdx j q 0).val = (j 0).val := by
  unfold DotDims.lhsIdx
  rw [dif_pos (show (0 : Fin (⟨3, ![B, M, K]⟩ : Shape).rank) ∈ (lastDims wf).lhsBatch from List.mem_singleton.mpr rfl)]
  rfl
theorem lhs_axis1 (j : (⟨3, ![B, M, N]⟩ : Shape).Idx) (q : (lastDims wf).contr.Idx) :
    ((lastDims wf).lhsIdx j q 1).val = (j 1).val := by
  unfold DotDims.lhsIdx
  rw [dif_neg (show ¬(1 : Fin (⟨3, ![B, M, K]⟩ : Shape).rank) ∈ (lastDims wf).lhsBatch from
      fun h => Nat.one_ne_zero (congrArg Fin.val (List.mem_singleton.mp h))),
    dif_pos (show (1 : Fin (⟨3, ![B, M, K]⟩ : Shape).rank) ∈ (lastDims wf).lhsNonContracting from List.mem_singleton.mpr rfl)]
  rfl
theorem lhs_axis2 (j : (⟨3, ![B, M, N]⟩ : Shape).Idx) (q : (lastDims wf).contr.Idx) :
    ((lastDims wf).lhsIdx j q 2).val = (q ⟨0, Nat.one_pos⟩).val :=
  (lastDims wf).lhsIdx_val_of_single rfl j q
theorem rhs_axis0 (j : (⟨3, ![B, M, N]⟩ : Shape).Idx) (q : (lastDims wf).contr.Idx) :
    ((lastDims wf).rhsIdx j q 0).val = (j 0).val := by
  unfold DotDims.rhsIdx
  rw [dif_pos (show (0 : Fin (⟨3, ![B, N, K]⟩ : Shape).rank) ∈ (lastDims wf).rhsBatch from List.mem_singleton.mpr rfl)]
  rfl
theorem rhs_axis1 (j : (⟨3, ![B, M, N]⟩ : Shape).Idx) (q : (lastDims wf).contr.Idx) :
    ((lastDims wf).rhsIdx j q 1).val = (j 2).val := by
  unfold DotDims.rhsIdx
  rw [dif_neg (show ¬(1 : Fin (⟨3, ![B, N, K]⟩ : Shape).rank) ∈ (lastDims wf).rhsBatch from
      fun h => Nat.one_ne_zero (congrArg Fin.val (List.mem_singleton.mp h))),
    dif_pos (show (1 : Fin (⟨3, ![B, N, K]⟩ : Shape).rank) ∈ (lastDims wf).rhsNonContracting from List.mem_singleton.mpr rfl)]
  rfl
theorem rhs_axis2 (j : (⟨3, ![B, M, N]⟩ : Shape).Idx) (q : (lastDims wf).contr.Idx) :
    ((lastDims wf).rhsIdx j q 2).val = (q ⟨0, Nat.one_pos⟩).val :=
  (lastDims wf).rhsIdx_val_of_single rfl j q

/-- The left operand's index at result index (b, p, q) and contraction coordinate k is (b, p, k). -/
theorem lhsIdx_ix3 (b : Fin B) (p : Fin M) (q : Fin N) (k : Fin K) :
    (lastDims wf).lhsIdx (ix3 b p q) ((contrEquiv1 (lastDims wf) K rfl rfl).symm k) = ix3 b p k :=
  funext fun ax => Fin.ext (by
    have hk := contrEquiv1_symm_val (lastDims wf) K rfl rfl k
    match ax with
    | ⟨0, _⟩ => exact lhs_axis0 wf _ _
    | ⟨1, _⟩ => exact lhs_axis1 wf _ _
    | ⟨2, _⟩ => exact (lhs_axis2 wf _ _).trans hk)

/-- The right operand's index at result index (b, p, q) and contraction coordinate k is (b, q, k). -/
theorem rhsIdx_ix3 (b : Fin B) (p : Fin M) (q : Fin N) (k : Fin K) :
    (lastDims wf).rhsIdx (ix3 b p q) ((contrEquiv1 (lastDims wf) K rfl rfl).symm k) = ix3 b q k :=
  funext fun ax => Fin.ext (by
    have hk := contrEquiv1_symm_val (lastDims wf) K rfl rfl k
    match ax with
    | ⟨0, _⟩ => exact rhs_axis0 wf _ _
    | ⟨1, _⟩ => exact rhs_axis1 wf _ _
    | ⟨2, _⟩ => exact (rhs_axis2 wf _ _).trans hk)

/-- The product into the zero accumulator at (b, p, q): the sum over the contracted coordinate. -/
theorem matmul_zero_last_apply {φ₁ φ₂ : FTy} (prec : Option ContractPrecision)
    (lhs : FVec Ideal ⟨3, ![B, M, K]⟩ φ₁) (rhs : FVec Ideal ⟨3, ![B, N, K]⟩ φ₂) (b : Fin B) (p : Fin M) (q : Fin N) :
    FloatOps.matmul (lastDims wf) prec lhs rhs (constant ⟨3, ![B, M, N]⟩ .f32 0x00000000#32) (ix3 b p q)
      = ∑ k : Fin K, lhs (ix3 b p k) * rhs (ix3 b q k) := by
  rw [Ideal.matmul_constant_zero_apply, ← Equiv.sum_comp (contrEquiv1 (lastDims wf) K rfl rfl).symm]
  refine Finset.sum_congr rfl fun k _ => ?_
  rw [lhsIdx_ix3 wf b p q k, rhsIdx_ix3 wf b p q k]

end Product

end Cert.Rank3

end
-- ==== Proof.LibLeadBcast.lean ====
/-
  One matrix laid along the leading axis of a stack: a `[1, b, c]` array broadcast to `[a, b, c]` reads, at
  `(p, q, r)`, the one matrix's entry `(0, q, r)`, whatever the layer `p`.
-/
import Idealize.ShloMosaic.Lib.Pipeline.Value
import Idealize.ShloMosaic.Lib.ValueIdx

namespace Cert.LibLeadBcast

open Idealize.ShloMosaic Idealize.ShloMosaic.ValueIdx

variable {α : Type} {a b c : ℕ}

/-- A `[1, b, c]` array laid along the leading axis of `[a, b, c]` reads, at `(p, q, r)`, its entry `(0, q, r)`. -/
theorem broadcastTo_1bc_abc_apply (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

end Cert.LibLeadBcast
-- ==== Proof.ModulateBody.lean ====
/-
  What the modulation kernel stores is the specification's weight array, entry by entry over the extended reals.

  The body's one stored value is read from the outside in. The closing product at (b, o, i) is the modulated weight there
  times the reciprocal square root, laid along the last axis, of the row's sum of squares plus the literal; the modulated
  weight is the kernel matrix laid along the samples times the scale laid along the output channels; and the scale is the
  matrix-unit product of the style with the transposed modulation matrix into the zero accumulator, plus the bias row
  laid along the samples, plus one.
-/
import proofs.«174892_j30296699306039_1_alg».proof.Proof.Gen.KernelIdeal.Skeleton
import proofs.«174892_j30296699306039_1_alg».proof.Proof.Spec
import proofs.«174892_j30296699306039_1_alg».proof.Proof.LibMatmulPlain
import proofs.«174892_j30296699306039_1_alg».proof.Proof.LibRank3
import proofs.«174892_j30296699306039_1_alg».proof.Proof.LibLeadBcast
import Idealize.ShloMosaic.Lib.ValueLayout
import Idealize.ShloMosaic.PureOps.Ideal.Laws

noncomputable section

namespace Cert.ModConv.Modulate

open Idealize.ShloMosaic Idealize.ShloMosaic.ValueIdx Cert.KernelIdeal Cert.KernelIdeal.Gen Cert.ModConv

/-- The scale at (b, i). -/
theorem scale_piece (wf : DotDims.WF S16x256 S256x128 S16x128 [1] [0] [0] [1] [] [])
    (htr : S128x256.Transposes [1, 0] S256x128) (hsc : S1x128.ShapeCasts S1x128) (hb : S1x128.Broadcasts S16x128)
    (t : FVec Ideal S16x256 .f32) (mw : FVec Ideal S128x256 .f32) (mb : FVec Ideal S1x128 .f32) (b : Fin 16) (i : Fin 128) :
    addf (addf (matmul (LibMatmulPlain.plainDims wf) none t (transpose S256x128 [1, 0] mw htr) (constant S16x128 .f32 0x00000000#32))
        (broadcastTo S16x128 (shapeCast S1x128 mb hsc) hb))
      (broadcast S16x128 (Scalar.ofBits (F := Ideal) .f32 0x3F800000#32)) (ix2 b i)
    = scaleAt t mw mb b i := by
  rw [addf_apply, addf_apply, broadcast_apply]
  rw [show matmul (LibMatmulPlain.plainDims wf) none t (transpose S256x128 [1, 0] mw htr) (constant S16x128 .f32 0x00000000#32) (ix2 b i)
      = ∑ k : Fin 256, t (ix2 b k) * (transpose S256x128 [1, 0] mw htr) (ix2 k i) from LibMatmulPlain.matmul_zero_plain_apply wf none _ _ b i]
  rw [broadcastTo_1b_ab_apply, shapeCast_self]
  have htr' : ∀ k : Fin 256, transpose S256x128 [1, 0] mw htr (ix2 k i) = mw (ix2 i k) := fun k => transpose_ix2_apply mw htr k i
  simp only [htr']
  rfl

/-- The modulated weight at (b, o, i). -/
theorem raw_piece (h1 : S128x128.ShapeCasts S128x128) (h2 : S128x128.ShapeCasts S1x128x128) (h3 : S1x128x128.Broadcasts S16x128x128)
    (h4 : S16x128.ShapeCasts S16x1x128) (h5 : S16x1x128.Broadcasts S16x128x128)
    (cw : FVec Ideal S128x128 .f32) (s : FVec Ideal S16x128 .f32) (b : Fin 16) (o i : Fin 128) :
    mulf (broadcastTo S16x128x128 (shapeCast S1x128x128 (shapeCast S128x128 cw h1) h2) h3)
        (broadcastTo S16x128x128 (shapeCast S16x1x128 s h4) h5) (ix3 b o i)
    = cw (ix2 o i) * s (ix2 b i) := by
  rw [mulf_apply, LibLeadBcast.broadcastTo_1bc_abc_apply, shapeCast_ab_1ab_apply, shapeCast_self,
    Rank3.broadcastTo_a1c_abc_apply, Rank3.shapeCast_ac_a1c_apply]

/-- The normalisation at (b, o, i), of any array `r` of modulated weights. -/
theorem norm_piece (hr : S16x128x128.Reduces [2] S16x128) (hφ : FKind.Formats .f32)
    (hacc : (0x00000000#32 : BitVec (FTy.bits .f32)) = FKind.add.neutral .f32 hφ)
    (h1 : S16x128.ShapeCasts S16x128x1) (h2 : S16x128x1.Broadcasts S16x128x128)
    (r : FVec Ideal S16x128x128 .f32) (b : Fin 16) (o i : Fin 128) :
    mulf r (broadcastTo S16x128x128 (rsqrt (addf (shapeCast S16x128x1 (multiReduction .add [2] S16x128 (mulf r r) 0x00000000#32 hr hφ hacc) h1)
        (broadcast S16x128x1 (Scalar.ofBits (F := Ideal) .f32 0x322BCC77#32)))) h2) (ix3 b o i)
    = r (ix3 b o i) * Ideal.rsqrt ((∑ k : Fin 128, r (ix3 b o k) * r (ix3 b o k)) + eps) := by
  rw [mulf_apply, Rank3.broadcastTo_ab1_abc_apply]
  show r (ix3 b o i) * Ideal.rsqrt (shapeCast S16x128x1 (multiReduction .add [2] S16x128 (mulf r r) 0x00000000#32 hr hφ hacc) h1 (ix3 b o (0 : Fin 1)) + eps) = _
  rw [Rank3.shapeCast_ab_ab1_apply, Rank3.sum_last_apply]
  rfl

/-- THE STORED VALUE is the weight array. -/
theorem payload_eq (v0 : FVec Ideal S16x256 .f32) (v1 : FVec Ideal S128x256 .f32) (v2 : FVec Ideal S1x128 .f32)
    (v4 : FVec Ideal S128x128 .f32) : k0_pay1 (F := Ideal) v0 v1 v2 v4 = weights v0 v1 v2 v4 := by
  funext j
  obtain ⟨b, o, i, rfl⟩ : ∃ (b : Fin 16) (o i : Fin 128), j = ix3 b o i := ⟨j 0, j 1, j 2, eq_ix3 j⟩
  rw [weights_ix3]
  unfold weightAt sumsqAt rawAt
  refine (norm_piece reduces_S16x128x128_S16x128 (.inl rfl) rfl shapeCasts_S16x128_S16x128x1 broadcasts_S16x128x1_S16x128x128 _ b o i).trans ?_
  have hraw : ∀ i' : Fin 128,
      mulf (broadcastTo S16x128x128 (shapeCast S1x128x128 (shapeCast S128x128 v4 shapeCasts_S128x128_S128x128) shapeCasts_S128x128_S1x128x128) broadcasts_S1x128x128_S16x128x128)
        (broadcastTo S16x128x128 (shapeCast S16x1x128
          (addf (addf (matmul dot_S16x256_S256x128_S16x128_1_0_0_1_n_n none v0 (transpose S256x128 [1, 0] v1 transposes_S128x256_p1_0_S256x128) (constant S16x128 .f32 0x00000000#32))
              (broadcastTo S16x128 (shapeCast S1x128 v2 shapeCasts_S1x128_S1x128) broadcasts_S1x128_S16x128))
            (broadcast S16x128 (Scalar.ofBits (F := Ideal) .f32 0x3F800000#32)))
          shapeCasts_S16x128_S16x1x128) broadcasts_S16x1x128_S16x128x128) (ix3 b o i')
      = v4 (ix2 o i') * scaleAt v0 v1 v2 b i' := fun i' =>
    (raw_piece _ _ _ _ _ v4 _ b o i').trans
      (congrArg (v4 (ix2 o i') * ·) (scale_piece dot_S16x256_S256x128_S16x128_1_0_0_1_n_n_wf _ _ _ v0 v1 v2 b i'))
  exact congrArg₂ (fun a s => a * Ideal.rsqrt (s + eps)) (hraw i) (Finset.sum_congr rfl fun k _ => by rw [hraw k])

end Cert.ModConv.Modulate

end
-- ==== Proof.ModulateRegion.lean ====
/-
  The modulation region, whatever the buffers hold when it is entered: its result array ends at the specification's
  weight array of the four arrays it reads. The grid has one point and every window's one block is its whole array, so
  each input block is the array itself, the one write-back covers the result array, and what is written back is the
  body's stored value of the arrays.
-/
import proofs.«174892_j30296699306039_1_alg».proof.Proof.Gen.KernelIdeal.Frame
import proofs.«174892_j30296699306039_1_alg».proof.Proof.ModulateBody
import Idealize.ShloMosaic.Lib.Pipeline.Value

set_option maxRecDepth 16384

noncomputable section

namespace Cert.ModConv.Modulate

open Idealize.ShloMosaic Idealize.ShloMosaic.TcCoe Idealize.SL.Sem Idealize.ShloMosaic.ValueIdx
open Idealize.ShloMosaic.Pipeline (Dat)
open Cert.KernelIdeal Cert.KernelIdeal.Gen Cert.ModConv

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- Every window's block index is zero on every axis, at the grid's one point. -/
theorem idx_zero : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = 0 ∧ win0_4.index t (1 : Fin 3) = 0 ∧ win0_4.index t (2 : Fin 3) = 0) :=
  (by decide +kernel : ∀ t : Fin grid0.N, _)

/-! ## Each input block is its whole array -/

theorem blk_style (c : Dev nD) (t : Fin cfg0.N) : (iblk0 V c 0 t : Vec Ideal S16x256 .f32) = V c main_arg1 := by
  funext y
  obtain ⟨⟨e0, e1⟩, -⟩ := idx_zero t
  show V c main_arg1 (((cfg0.win 0).blk t).view.emb y) = V c main_arg1 y
  refine congrArg (V c main_arg1) (funext fun a => Fin.ext ?_)
  match a with
  | ⟨0, _⟩ => show win0_0.index t (0 : Fin 2) * 16 + 1 * (y 0).val = (y 0).val; omega
  | ⟨1, _⟩ => show win0_0.index t (1 : Fin 2) * 256 + 1 * (y 1).val = (y 1).val; omega

theorem blk_modw (c : Dev nD) (t : Fin cfg0.N) : (iblk0 V c 1 t : Vec Ideal S128x256 .f32) = V c main_arg3 := by
  funext y
  obtain ⟨-, ⟨e0, e1⟩, -⟩ := idx_zero t
  show V c main_arg3 (((cfg0.win 1).blk t).view.emb y) = V c main_arg3 y
  refine congrArg (V c main_arg3) (funext fun a => Fin.ext ?_)
  match a with
  | ⟨0, _⟩ => show win0_1.index t (0 : Fin 2) * 128 + 1 * (y 0).val = (y 0).val; omega
  | ⟨1, _⟩ => show win0_1.index t (1 : Fin 2) * 256 + 1 * (y 1).val = (y 1).val; omega

theorem blk_bias (c : Dev nD) (t : Fin cfg0.N) : (iblk0 V c 2 t : Vec Ideal S1x128 .f32) = V c main_v1 := by
  funext y
  obtain ⟨-, -, ⟨e0, e1⟩, -⟩ := idx_zero t
  show V c main_v1 (((cfg0.win 2).blk t).view.emb y) = V c main_v1 y
  refine congrArg (V c main_v1) (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

theorem blk_kmat (c : Dev nD) (t : Fin cfg0.N) : (iblk0 V c 3 t : Vec Ideal S128x128 .f32) = V c main_v0 := by
  funext y
  obtain ⟨-, -, -, ⟨e0, e1⟩, -⟩ := idx_zero t
  show V c main_v0 (((cfg0.win 3).blk t).view.emb y) = V c main_v0 y
  refine congrArg (V c main_v0) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-! ## The write-back, the cover, the array -/

/-- The weight array of the four arrays as the region finds them. -/
abbrev entryWeights (c : Dev nD) : FVec Ideal S16x128x128 .f32 :=
  weights (V c main_arg1) (V c main_arg3) (V c main_v1) (V c main_v0)

/-- What the one point writes back is its block of the weight array. -/
theorem flushed_eq (c : Dev nD) (t : Fin cfg0.N) :
    (dat0 V c).flushed 4 t = ((cfg0.win 4).blk t).view.read (Elt Ideal) (entryWeights V c) := by
  show (cfg0.win 4).cut (grid0.coords t) ((dat0 V c).after 4 t) = _
  rw [after0_4]
  unfold out0_4
  rw [View.canon_unit_zero hz3]
  simp only [View.ld_unit_zero (S := S16x256) hz2, View.ld_unit_zero (S := S128x256) hz2, View.ld_unit_zero (S := S1x128) hz2,
    View.ld_unit_zero (S := S128x128) hz2]
  rw [blk_style, blk_modw, blk_bias, blk_kmat, payload_eq]
  obtain ⟨-, -, -, -, e0, e1, e2⟩ := idx_zero t
  funext y
  show entryWeights V c y = entryWeights V c (((cfg0.win 4).blk t).view.emb y)
  refine congrArg (entryWeights V c) (funext fun a => Fin.ext ?_)
  match a with
  | ⟨0, _⟩ => show (y 0).val = win0_4.index t (0 : Fin 3) * 16 + 1 * (y 0).val; omega
  | ⟨1, _⟩ => show (y 1).val = win0_4.index t (1 : Fin 3) * 128 + 1 * (y 1).val; omega
  | ⟨2, _⟩ => show (y 2).val = win0_4.index t (2 : Fin 3) * 128 + 1 * (y 2).val; omega

/-- An index of the result array is in the point's block iff each coordinate is in the block's range on its axis. -/
theorem mem_blk (t : Fin cfg0.N) (i : S16x128x128.Idx) :
    i ∈ ((cfg0.win 4).blk t).view.set ↔ ∀ a : Fin 3, win0_4.index t a * S16x128x128.size a ≤ (i a).val
      ∧ (i a).val < win0_4.index t a * S16x128x128.size a + S16x128x128.size a := by
  show i ∈ ((View.whole main_v2).slice (win0_4.rect t)).set ↔ _
  rw [View.set_slice_whole, Rect.mem_set_unit]
  exact Iff.rfl

/-- THE RESULT ARRAY of the region is the weight array of the arrays it was entered with. -/
theorem final (c : Dev nD) : (dat0 V c).arrAt 4 cfg0.N = entryWeights V c :=
  (dat0 V c).arrAt_eq_of_cover 4 (entryWeights V c) (fun t _ => flushed_eq V c t) fun i => by
    refine ⟨t0_0, flush0_4 t0_0, ?_⟩
    rw [mem_blk]
    obtain ⟨-, -, -, -, e0, e1, e2⟩ := idx_zero t0_0
    have h0 : (i 0).val < 16 := (i 0).isLt
    have h1 : (i 1).val < 128 := (i 1).isLt
    have h2 : (i 2).val < 128 := (i 2).isLt
    intro a
    match a with
    | ⟨0, _⟩ => show win0_4.index t0_0 (0 : Fin 3) * 16 ≤ (i 0).val ∧ (i 0).val < win0_4.index t0_0 (0 : Fin 3) * 16 + 16; omega
    | ⟨1, _⟩ => show win0_4.index t0_0 (1 : Fin 3) * 128 ≤ (i 1).val ∧ (i 1).val < win0_4.index t0_0 (1 : Fin 3) * 128 + 128; omega
    | ⟨2, _⟩ => show win0_4.index t0_0 (2 : Fin 3) * 128 ≤ (i 2).val ∧ (i 2).val < win0_4.index t0_0 (2 : Fin 3) * 128 + 128; omega

end Cert.ModConv.Modulate

end
-- ==== Proof.ConvBody.lean ====
/-
  What the convolution kernel stores at one grid point, entry by entry over the extended reals: the point's weight
  matrix, read without its unit leading axis and narrowed (the identity on the extended reals), times the point's tile
  of the sample into the zero accumulator, given back its unit leading axis. At (0, o, l) that is the sum over the
  input channel i of weight (0, o, i) * tile (0, i, l).
-/
import proofs.«174892_j30296699306039_1_alg».proof.Proof.Gen.KernelIdeal.Skeleton
import proofs.«174892_j30296699306039_1_alg».proof.Proof.LibMatmulPlain
import Idealize.ShloMosaic.Lib.ValueLayout
import Idealize.ShloMosaic.PureOps.Ideal.Laws

noncomputable section

namespace Cert.ModConv.Conv

open Idealize.ShloMosaic Idealize.ShloMosaic.ValueIdx Cert.KernelIdeal Cert.KernelIdeal.Gen

/-- The product of one point's blocks at (u, o, l). -/
theorem product_piece (wf : DotDims.WF S128x128 S128x4096 S128x4096 [1] [0] [0] [1] [] [])
    (h1 : S1x128x128.ShapeCasts S128x128) (hlt : FTy.bits .bf16 < FTy.bits .f32) (h2 : S1x128x4096.ShapeCasts S128x4096)
    (h3 : S128x4096.ShapeCasts S1x128x4096)
    (w : FVec Ideal S1x128x128 .f32) (x : FVec Ideal S1x128x4096 .f32) (u : Fin 1) (o : Fin 128) (l : Fin 4096) :
    shapeCast S1x128x4096 (matmul (LibMatmulPlain.plainDims wf) none (truncf .bf16 (shapeCast S128x128 w h1) hlt)
        (truncf .bf16 (shapeCast S128x4096 x h2) hlt) (constant S128x4096 .f32 0x00000000#32)) h3 (ix3 u o l)
    = ∑ i : Fin 128, w (ix3 (0 : Fin 1) o i) * x (ix3 (0 : Fin 1) i l) := by
  rw [shapeCast_ab_1ab_apply]
  rw [show matmul (LibMatmulPlain.plainDims wf) none (truncf .bf16 (shapeCast S128x128 w h1) hlt)
        (truncf .bf16 (shapeCast S128x4096 x h2) hlt) (constant S128x4096 .f32 0x00000000#32) (ix2 o l)
      = ∑ k : Fin 128, (truncf .bf16 (shapeCast S128x128 w h1) hlt : FVec Ideal S128x128 .bf16) (ix2 o k)
          * (truncf .bf16 (shapeCast S128x4096 x h2) hlt : FVec Ideal S128x4096 .bf16) (ix2 k l)
      from LibMatmulPlain.matmul_zero_plain_apply wf none _ _ o l]
  refine Finset.sum_congr rfl fun k _ => ?_
  rw [truncf_apply, truncf_apply, shapeCast_1ab_ab_apply, shapeCast_1ab_ab_apply]

/-- THE STORED VALUE at (u, o, l). -/
theorem payload_apply (v0 : FVec Ideal S1x128x128 .f32) (v3 : FVec Ideal S1x128x4096 .f32) (u : Fin 1) (o : Fin 128) (l : Fin 4096) :
    k1_pay1 (F := Ideal) v0 v3 (ix3 u o l) = ∑ i : Fin 128, v0 (ix3 (0 : Fin 1) o i) * v3 (ix3 (0 : Fin 1) i l) :=
  product_piece dot_S128x128_S128x4096_S128x4096_1_0_0_1_n_n_wf _ _ _ _ v0 v3 u o l

end Cert.ModConv.Conv

end
-- ==== Proof.ConvRegion.lean ====
/-
  The convolution region, whatever the buffers hold when it is entered: its result array ends at the convolution of the
  sample array with the weight array it reads. Point t of the 16 x 4 grid is sample t / 4 and length tile t % 4: its
  weight block is that sample's matrix, its input and output blocks are that sample's columns 4096 (t % 4) onward. What
  the point writes back is its block of the convolution, and the 64 blocks tile the result array.
-/
import proofs.«174892_j30296699306039_1_alg».proof.Proof.Gen.KernelIdeal.Frame
import proofs.«174892_j30296699306039_1_alg».proof.Proof.ConvBody
import proofs.«174892_j30296699306039_1_alg».proof.Proof.Spec
import Idealize.ShloMosaic.Lib.Pipeline.Value

set_option maxRecDepth 16384

noncomputable section

namespace Cert.ModConv.Conv

open Idealize.ShloMosaic Idealize.ShloMosaic.TcCoe Idealize.SL.Sem Idealize.ShloMosaic.ValueIdx
open Idealize.ShloMosaic.Pipeline (Dat)
open Cert.KernelIdeal Cert.KernelIdeal.Gen Cert.ModConv

variable (V : (c : Dev nD) → (b : Ref sig .tc) → Buf (Elt Ideal) ((c : Thread nD τ).loc b))

theorem hz3 : (![0, 0, 0] : Fin 3 → Nat) = fun _ => 0 := funext fun a => by fin_cases a <;> rfl

/-- The printed index maps in closed form, decided over the grid: the sample is t / 4, the length tile t % 4. -/
theorem idx_facts : ∀ t : Fin cfg1.N,
    win1_0.index t (0 : Fin 3) = t.val / 4 ∧ win1_0.index t (1 : Fin 3) = 0 ∧ win1_0.index t (2 : Fin 3) = 0
    ∧ win1_1.index t (0 : Fin 3) = t.val / 4 ∧ win1_1.index t (1 : Fin 3) = 0 ∧ win1_1.index t (2 : Fin 3) = t.val % 4
    ∧ win1_2.index t (0 : Fin 3) = t.val / 4 ∧ win1_2.index t (1 : Fin 3) = 0 ∧ win1_2.index t (2 : Fin 3) = t.val % 4 :=
  (by decide +kernel : ∀ t : Fin grid1.N, _)

/-- One point's stored value at an index of its block is the convolution at an index of the array, once the point's
    two input blocks are known to be the arrays' rows there. -/
theorem block_value (W : FVec Ideal S16x128x128 .f32) (X : FVec Ideal S16x128x16384 .f32)
    (w : FVec Ideal S1x128x128 .f32) (x : FVec Ideal S1x128x4096 .f32) (y : S1x128x4096.Idx) (j : S16x128x16384.Idx)
    (hw : ∀ i : Fin 128, w (ix3 (0 : Fin 1) (y 1) i) = W (ix3 (j 0) (j 1) i))
    (hx : ∀ i : Fin 128, x (ix3 (0 : Fin 1) i (y 2)) = X (ix3 (j 0) i (j 2))) :
    k1_pay1 (F := Ideal) w x y = conv W X j := by
  obtain ⟨u, o, l, rfl⟩ : ∃ (u : Fin 1) (o : Fin 128) (l : Fin 4096), y = ix3 u o l := ⟨y 0, y 1, y 2, eq_ix3 y⟩
  rw [payload_apply]
  exact Finset.sum_congr rfl fun i _ => congrArg₂ (· * ·) (hw i) (hx i)

/-- The convolution of the two arrays as the region finds them. -/
abbrev entryConv (c : Dev nD) : FVec Ideal S16x128x16384 .f32 := conv (V c main_v2) (V c main_arg0)

/-- WHAT POINT t WRITES BACK is block t of the convolution. -/
theorem flushed_eq (c : Dev nD) (t : Fin cfg1.N) :
    (dat1 V c).flushed 2 t = ((cfg1.win 2).blk t).view.read (Elt Ideal) (entryConv V c) := by
  show (cfg1.win 2).cut (grid1.coords t) ((dat1 V c).after 2 t) = _
  rw [after1_2]
  unfold out1_2
  rw [View.canon_unit_zero hz3]
  simp only [View.ld_unit_zero (S := S1x128x128) hz3, View.ld_unit_zero (S := S1x128x4096) hz3]
  obtain ⟨a0, a1, a2, b0, b1, b2, c0, c1, c2⟩ := idx_facts t
  funext y
  show k1_pay1 (F := Ideal) (iblk1 V c 0 t) (iblk1 V c 1 t) y = conv (V c main_v2) (V c main_arg0) (((cfg1.win 2).blk t).view.emb y)
  have hy0 : (y 0).val < 1 := (y 0).isLt
  refine block_value (V c main_v2) (V c main_arg0) _ _ y _ (fun i => ?_) (fun i => ?_)
  · show V c main_v2 (((cfg1.win 0).blk t).view.emb (ix3 (0 : Fin 1) (y 1) i))
      = V c main_v2 (ix3 ((((cfg1.win 2).blk t).view.emb y) 0) ((((cfg1.win 2).blk t).view.emb y) 1) i)
    refine congrArg (V c main_v2) (funext fun a => Fin.ext ?_)
    match a with
    | ⟨0, _⟩ => show win1_0.index t (0 : Fin 3) * 1 + 1 * 0 = win1_2.index t (0 : Fin 3) * 1 + 1 * (y 0).val; omega
    | ⟨1, _⟩ => show win1_0.index t (1 : Fin 3) * 128 + 1 * (y 1).val = win1_2.index t (1 : Fin 3) * 128 + 1 * (y 1).val; omega
    | ⟨2, _⟩ => show win1_0.index t (2 : Fin 3) * 128 + 1 * i.val = i.val; omega
  · show V c main_arg0 (((cfg1.win 1).blk t).view.emb (ix3 (0 : Fin 1) i (y 2)))
      = V c main_arg0 (ix3 ((((cfg1.win 2).blk t).view.emb y) 0) i ((((cfg1.win 2).blk t).view.emb y) 2))
    refine congrArg (V c main_arg0) (funext fun a => Fin.ext ?_)
    match a with
    | ⟨0, _⟩ => show win1_1.index t (0 : Fin 3) * 1 + 1 * 0 = win1_2.index t (0 : Fin 3) * 1 + 1 * (y 0).val; omega
    | ⟨1, _⟩ => show win1_1.index t (1 : Fin 3) * 128 + 1 * i.val = i.val; omega
    | ⟨2, _⟩ => show win1_1.index t (2 : Fin 3) * 4096 + 1 * (y 2).val = win1_2.index t (2 : Fin 3) * 4096 + 1 * (y 2).val; omega

/-- An index of the result array is in point t's block iff each coordinate is in the block's range on its axis. -/
theorem mem_blk (t : Fin cfg1.N) (i : S16x128x16384.Idx) :
    i ∈ ((cfg1.win 2).blk t).view.set ↔ ∀ a : Fin 3, win1_2.index t a * S1x128x4096.size a ≤ (i a).val
      ∧ (i a).val < win1_2.index t a * S1x128x4096.size a + S1x128x4096.size a := by
  show i ∈ ((View.whole main_v3).slice (win1_2.rect t)).set ↔ _
  rw [View.set_slice_whole, Rect.mem_set_unit]
  exact Iff.rfl

/-- Every index of the result array is in the block of the point of its sample and its length tile. -/
theorem cover (i : S16x128x16384.Idx) : ∃ t : Fin cfg1.N, (cfg1.win 2).flush t = true ∧ i ∈ ((cfg1.win 2).blk t).view.set := by
  have h0 : (i 0).val < 16 := (i 0).isLt
  have h1 : (i 1).val < 128 := (i 1).isLt
  have h2 : (i 2).val < 16384 := (i 2).isLt
  have hN : cfg1.N = 64 := N_1
  let t : Fin cfg1.N := ⟨(i 0).val * 4 + (i 2).val / 4096, by omega⟩
  have htv : t.val = (i 0).val * 4 + (i 2).val / 4096 := rfl
  obtain ⟨-, -, -, -, -, -, c0, c1, c2⟩ := idx_facts t
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 128 ≤ (i 1).val ∧ (i 1).val < win1_2.index t (1 : Fin 3) * 128 + 128; omega
  | ⟨2, _⟩ => show win1_2.index t (2 : Fin 3) * 4096 ≤ (i 2).val ∧ (i 2).val < win1_2.index t (2 : Fin 3) * 4096 + 4096; omega

/-- THE RESULT ARRAY of the region is the convolution of the arrays it was entered with. -/
theorem final (c : Dev nD) : (dat1 V c).arrAt 2 cfg1.N = entryConv V c :=
  (dat1 V c).arrAt_eq_of_cover 2 (entryConv V c) (fun t _ => flushed_eq V c t) (cover)

end Cert.ModConv.Conv

end
-- ==== Proof.LibTrailUnit.lean ====
/-
  A trailing unit axis dropped by a shape cast: an `[a, b, 1]` array viewed as `[a, b]` reads, at `(p, q)`, the
  operand at `(p, q, 0)`.
-/
import Idealize.ShloMosaic.Lib.Pipeline.Value
import Idealize.ShloMosaic.Lib.ValueIdx

namespace Cert.LibTrailUnit

open Idealize.ShloMosaic Idealize.ShloMosaic.ValueIdx

variable {α : Type} {a b : ℕ}

/-- An `[a, b, 1]` array viewed as `[a, b]` reads, at `(p, q)`, the operand at `(p, q, 0)`. -/
theorem shapeCast_ab1_ab_apply (x : (⟨3, ![a, b, 1]⟩ : Shape).Idx → α)
    (h : (⟨3, ![a, b, 1]⟩ : Shape).ShapeCasts ⟨2, ![a, b]⟩) (p : Fin a) (q : Fin b) :
    shapeCast ⟨2, ![a, b]⟩ x h (ix2 p q) = x (ix3 p q (0 : Fin 1)) :=
  shapeCast_apply x h _ _ (by
    rw [Shape.rowMajor_val_three, Shape.rowMajor_val_two]
    show (p.val * b + q.val) * 1 + 0 = p.val * b + q.val
    rw [Nat.mul_one, Nat.add_zero])

end Cert.LibTrailUnit
-- ==== Proof.KernelValue.lean ====
/-
  The kernel program's result array after the run is the specification's function of the five argument arrays.

  The result array is the second region's output, so at the last boundary it holds that region's write-backs: the
  convolution of the sample array with the weight array as the second region finds them. The sample array is an argument
  no operation writes; the weight array is the first region's output, which ends at the weights of the style, the
  modulation matrix, the bias row and the kernel matrix as the first region finds them. The first two are arguments; the
  last two are the host's reshapes of the bias vector and of the convolution's weight array.
-/
import proofs.«174892_j30296699306039_1_alg».proof.Proof.KernelRun
import proofs.«174892_j30296699306039_1_alg».proof.Proof.ModulateRegion
import proofs.«174892_j30296699306039_1_alg».proof.Proof.ConvRegion
import proofs.«174892_j30296699306039_1_alg».proof.Proof.LibTrailUnit
import Idealize.ShloMosaic.Lib.StableHlo.Run
import Idealize.ShloMosaic.Lib.ValueLayout

set_option maxRecDepth 16384

noncomputable section

namespace Cert.ModConv.Kernel

open Idealize.ShloMosaic Idealize.ShloMosaic.TcCoe Idealize.SL.Sem Idealize.ShloMosaic.ValueIdx Idealize.ShloMosaic.StableHlo
open Cert.KernelIdeal Cert.KernelIdeal.Gen Cert.ModConv

variable (m : (ℓ : Loc nD τ sig) → Buf (Elt Ideal) ℓ) (ρ : Dev nD → PrngReg)

/-! ## What the first region finds -/

theorem entry_style (c : Dev nD) : V1 m ρ c main_arg1 = m ((c : Thread nD τ).loc main_arg1) := by
  show StableHlo.after hostOps0 (W0 m ρ c) (Proc.devRef .tc main_arg1) = _
  after_results

theorem entry_modw (c : Dev nD) : V1 m ρ c main_arg3 = m ((c : Thread nD τ).loc main_arg3) := by
  show StableHlo.after hostOps0 (W0 m ρ c) (Proc.devRef .tc main_arg3) = _
  after_results

/-- The bias row is the bias vector given a unit leading axis. -/
theorem entry_bias (c : Dev nD) : (V1 m ρ c main_v1 : FVec Ideal S1x128 .f32) = biasRow (m ((c : Thread nD τ).loc main_arg4)) := by
  have e : (V1 m ρ c main_v1 : FVec Ideal S1x128 .f32)
      = shapeCast S1x128 (m ((c : Thread nD τ).loc main_arg4)) shapeCasts_S128_S1x128 := by
    show StableHlo.after hostOps0 (W0 m ρ c) (Proc.devRef .tc main_v1) = _
    after_results
    rfl
  rw [e]
  funext j
  obtain ⟨u, i, rfl⟩ : ∃ (u : Fin 1) (i : Fin 128), j = ix2 u i := ⟨j 0, j 1, eq_ix2 j⟩
  rw [shapeCast_a_1a_apply]
  rfl

/-- The kernel matrix is the convolution's weight array without its unit trailing axis. -/
theorem entry_kmat (c : Dev nD) : (V1 m ρ c main_v0 : FVec Ideal S128x128 .f32) = kernelMat (m ((c : Thread nD τ).loc main_arg2)) := by
  have e : (V1 m ρ c main_v0 : FVec Ideal S128x128 .f32)
      = shapeCast S128x128 (m ((c : Thread nD τ).loc main_arg2)) shapeCasts_S128x128x1_S128x128 := by
    show StableHlo.after hostOps0 (W0 m ρ c) (Proc.devRef .tc main_v0) = _
    after_results
    rfl
  rw [e]
  funext j
  obtain ⟨o, i, rfl⟩ : ∃ (o i : Fin 128), j = ix2 o i := ⟨j 0, j 1, eq_ix2 j⟩
  rw [LibTrailUnit.shapeCast_ab1_ab_apply]
  rfl

/-! ## What the second region finds -/

/-- The weight array: the first region's output. -/
theorem entry_weights (c : Dev nD) : (V2 m ρ c main_v2 : FVec Ideal S16x128x128 .f32)
    = weights (m ((c : Thread nD τ).loc main_arg1)) (m ((c : Thread nD τ).loc main_arg3))
        (biasRow (m ((c : Thread nD τ).loc main_arg4))) (kernelMat (m ((c : Thread nD τ).loc main_arg2))) := by
  refine (W2_arr m ρ c 4).trans ((Modulate.final (V1 m ρ) c).trans ?_)
  show weights (V1 m ρ c main_arg1) (V1 m ρ c main_arg3) (V1 m ρ c main_v1) (V1 m ρ c main_v0) = _
  rw [entry_style, entry_modw, entry_bias, entry_kmat]

/-- The sample array: an argument neither the host operations nor the first region write. -/
theorem entry_sample (c : Dev nD) : V2 m ρ c main_arg0 = m ((c : Thread nD τ).loc main_arg0) := by
  refine (W2_of_ne m ρ c main_arg0 (by decide)).trans ?_
  show StableHlo.after hostOps0 (W0 m ρ c) (Proc.devRef .tc main_arg0) = _
  after_results

/-! ## The result -/

/-- THE RESULT ARRAY at the last boundary is the specification of the launch memory's arguments. -/
theorem result_value (c : Dev nD) : W3 m ρ c (Proc.devRef .tc main_v3)
    = result (m ((c : Thread nD τ).loc main_arg0)) (m ((c : Thread nD τ).loc main_arg1)) (m ((c : Thread nD τ).loc main_arg2))
        (m ((c : Thread nD τ).loc main_arg3)) (m ((c : Thread nD τ).loc main_arg4)) := by
  refine (W3_arr m ρ c 2).trans ((Conv.final (V2 m ρ) c).trans ?_)
  show conv (V2 m ρ c main_v2) (V2 m ρ c main_arg0) = _
  rw [entry_weights, entry_sample]
  rfl

/-- The run with the result named by the specification. -/
theorem run : θ_run defs (onTc (τ := τ) (main (F := Ideal))) ⟨m, fun _ => 0, ρ⟩ (fun r => ∀ c : Dev nD,
      r.2.mem ((c.tc : Thread nD τ).loc main_v3)
        = result (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_value m ρ c), (h c).2⟩) (run_named m ρ)

end Cert.ModConv.Kernel

end
-- ==== Proof.RefIsSpec.lean ====
/-
  The reference program's result is the specification's function of the five argument arrays.

  Each host operation is read at an index through the generated stage lemmas; the index functions those lemmas compose
  are identified, coordinate by coordinate, with the plain coordinates of the specification. The transposed modulation
  matrix read at (k, i) is the matrix at (i, k); the bias broadcast twice reads the bias at the column; the kernel array
  reshaped and broadcast reads the array at (o, i, 0); the host's sum from the zero word is the sum; its reciprocal square
  root is the extended reals' one; and the batched product contracts the input channel.
-/
import proofs.«174892_j30296699306039_1_alg».proof.Proof.Gen.ReferenceIdeal.Run
import proofs.«174892_j30296699306039_1_alg».proof.Proof.Gen.ReferenceIdeal.Read
import proofs.«174892_j30296699306039_1_alg».proof.Proof.Spec

noncomputable section

namespace Cert.ModConv.Ref

open Idealize.ShloMosaic Idealize.ShloMosaic.ValueIdx Cert.ReferenceIdeal Cert.ReferenceIdeal.Read Cert.ModConv

variable (x0 : FVec Ideal S16x128x16384 .f32) (x1 : FVec Ideal S16x256 .f32) (x2 : FVec Ideal S128x128x1 .f32)
  (x3 : FVec Ideal S128x256 .f32) (x4 : FVec Ideal S128 .f32)

/-! ## The composed index functions, by coordinates -/

theorem lidx1 (b : Fin 16) (i : Fin 128) (k : Fin 256) : lidx_main_v1 (ix2 b i) k = ix2 b k :=
  funext fun a => Fin.ext (by match a with | ⟨0, _⟩ => rfl | ⟨1, _⟩ => rfl)
theorem ridx1 (b : Fin 16) (i : Fin 128) (k : Fin 256) : idx_main_v0 (ridx_main_v1 (ix2 b i) k) = ix2 i k :=
  funext fun a => Fin.ext (by match a with | ⟨0, _⟩ => rfl | ⟨1, _⟩ => rfl)
theorem idx3 (b : Fin 16) (i : Fin 128) : idx_main_v2 (idx_main_v3 (ix2 b i)) = ix1 i :=
  funext fun a => Fin.ext (by match a with | ⟨0, _⟩ => rfl)
theorem idx11 (b : Fin 16) (o i : Fin 128) : idx_main_v9 (idx_main_v11 (ix3 b o i)) = ix2 b i :=
  funext fun a => Fin.ext (by match a with | ⟨0, _⟩ => rfl | ⟨1, _⟩ => rfl)
theorem idx10 (b : Fin 16) (o i : Fin 128) : idx_main_v7 (idx_main_v8 (idx_main_v10 (ix3 b o i))) = ix3 o i (0 : Fin 1) :=
  funext fun a => Fin.ext (by
    have ho : o.val < 128 := o.isLt
    have hi : i.val < 128 := i.isLt
    match a with
    | ⟨0, _⟩ => show (o.val * 128 + i.val) / 128 = o.val; omega
    | ⟨1, _⟩ => show (o.val * 128 + i.val) / 1 % 128 = i.val; omega
    | ⟨2, _⟩ => rfl)
theorem idx14 (b : Fin 16) (o : Fin 128) (k : Fin 128) : idx_main_v14 (ix2 b o) k = ix3 b o k :=
  funext fun a => Fin.ext (by match a with | ⟨0, _⟩ => rfl | ⟨1, _⟩ => rfl | ⟨2, _⟩ => rfl)
theorem idx19 (b : Fin 16) (o i : Fin 128) : idx_main_v18 (idx_main_v19 (ix3 b o i)) = ix2 b o :=
  funext fun a => Fin.ext (by match a with | ⟨0, _⟩ => rfl | ⟨1, _⟩ => rfl)
theorem lidx21 (b : Fin 16) (o : Fin 128) (l : Fin 16384) (i : Fin 128) : lidx_main_v21 (ix3 b o l) i = ix3 b o i :=
  funext fun a => Fin.ext (by match a with | ⟨0, _⟩ => rfl | ⟨1, _⟩ => rfl | ⟨2, _⟩ => rfl)
theorem ridx21 (b : Fin 16) (o : Fin 128) (l : Fin 16384) (i : Fin 128) : ridx_main_v21 (ix3 b o l) i = ix3 b i l :=
  funext fun a => Fin.ext (by match a with | ⟨0, _⟩ => rfl | ⟨1, _⟩ => rfl | ⟨2, _⟩ => rfl)

/-! ## The stages -/

/-- The host's scale: the product with the transposed modulation matrix, plus the bias, plus one. -/
theorem scale_eq (b : Fin 16) (i : Fin 128) :
    val_main_v6 (F := Ideal) x1 x3 x4 (ix2 b i) = scaleAt x1 x3 (biasRow x4) b i := by
  rw [val_main_v6_apply, val_main_v4_apply, val_main_v1_apply, val_main_v3_apply, val_main_v2_apply, val_main_v5_apply,
    val_main_cst_apply, idx3]
  simp only [val_main_v0_apply, lidx1, ridx1]
  rfl

/-- The modulated weight before normalisation. -/
theorem raw_eq (b : Fin 16) (o i : Fin 128) :
    val_main_v12 (F := Ideal) x1 x2 x3 x4 (ix3 b o i) = rawAt x1 x3 (biasRow x4) (kernelMat x2) b o i := by
  rw [val_main_v12_apply, val_main_v10_apply, val_main_v8_apply, val_main_v7_apply, val_main_v11_apply, val_main_v9_apply,
    idx10, idx11, scale_eq]
  rfl

/-- The squared length of a row of modulated weights: the host's sum starts from the zero word. -/
theorem sumsq_eq (b : Fin 16) (o : Fin 128) :
    val_main_v14 (F := Ideal) x1 x2 x3 x4 (ix2 b o) = sumsqAt x1 x3 (biasRow x4) (kernelMat x2) b o := by
  rw [val_main_v14_apply, val_main_cst_0_apply]
  simp only [val_main_v13_apply, idx14, raw_eq]
  show Ideal.ofBits .f32 0x00000000#32 + _ = _
  rw [Ideal.ofBits_zero_f32, zero_add]
  rfl

/-- The normalised weights. -/
theorem weights_eq : val_main_v20 (F := Ideal) x1 x2 x3 x4 = weights x1 x3 (biasRow x4) (kernelMat x2) := by
  funext j
  obtain ⟨b, o, i, rfl⟩ : ∃ (b : Fin 16) (o i : Fin 128), j = ix3 b o i := ⟨j 0, j 1, j 2, eq_ix3 j⟩
  rw [val_main_v20_apply, val_main_v19_apply, val_main_v18_apply, val_main_v17_apply, val_main_v16_apply, val_main_v15_apply,
    val_main_cst_1_apply, idx19, raw_eq, sumsq_eq]
  rfl

/-- THE REFERENCE'S RESULT is the specification. -/
theorem result_eq : val_main_v21 (F := Ideal) x0 x1 x2 x3 x4 = result x0 x1 x2 x3 x4 := by
  funext j
  obtain ⟨b, o, l, rfl⟩ : ∃ (b : Fin 16) (o : Fin 128) (l : Fin 16384), j = ix3 b o l := ⟨j 0, j 1, j 2, eq_ix3 j⟩
  rw [val_main_v21_apply, weights_eq]
  simp only [lidx21, ridx21]
  rfl

end Cert.ModConv.Ref

end
-- ==== Proof.lean ====
/-
  A modulated pointwise convolution in two kernels against its plain reference, over the extended reals.

  Both programs compute, for a style t [16, 256], a modulation matrix mw [128, 256], a bias mb [128], a weight array
  cw [128, 128, 1] and samples x [16, 128, 16384]:
    scale (b, i)     = (sum over k of t (b, k) * mw (i, k)) + mb (i) + 1
    raw (b, o, i)    = cw (o, i, 0) * scale (b, i)
    weight (b, o, i) = raw (b, o, i) * rsqrt ((sum over i' of raw (b, o, i')^2) + eps)
    out (b, o, l)    = sum over i of weight (b, o, i) * x (b, i, l)
  in the same order of operations and with the same two literals, so no law beyond reading each operation at an index
  joins the two sides: a change of float format is the identity, a matrix-unit product into the zero accumulator and
  the host's dot_general are the same sum, a lane sum and the host's sum from zero are the same sum, and the two
  reciprocal square roots are the extended reals' one function. The precondition is never opened.

  The first kernel writes the weight array in one grid point; the second reads it, one sample's matrix per point, and
  tiles the length axis in four. The kernel program's result is read off its run region by region; the reference's off
  its run operation by operation; both are the one function `Cert.ModConv.result` of the argument arrays.
-/
import proofs.«174892_j30296699306039_1_alg».proof.Defs
import proofs.«174892_j30296699306039_1_alg».proof.Proof.Gen.Kernel
import proofs.«174892_j30296699306039_1_alg».proof.Proof.Gen.Kernel.Skeleton
import proofs.«174892_j30296699306039_1_alg».proof.Proof.Gen.Kernel.Launch
import proofs.«174892_j30296699306039_1_alg».proof.Proof.Gen.Kernel.Points
import proofs.«174892_j30296699306039_1_alg».proof.Proof.Gen.Kernel.Frame
import proofs.«174892_j30296699306039_1_alg».proof.Proof.Gen.KernelIdeal
import proofs.«174892_j30296699306039_1_alg».proof.Proof.Gen.KernelIdeal.Skeleton
import proofs.«174892_j30296699306039_1_alg».proof.Proof.Gen.KernelIdeal.Launch
import proofs.«174892_j30296699306039_1_alg».proof.Proof.Gen.KernelIdeal.Points
import proofs.«174892_j30296699306039_1_alg».proof.Proof.Gen.KernelIdeal.Frame
import proofs.«174892_j30296699306039_1_alg».proof.Proof.Gen.ReferenceIdeal
import proofs.«174892_j30296699306039_1_alg».proof.Proof.Gen.ReferenceIdeal.Run
import proofs.«174892_j30296699306039_1_alg».proof.Proof.Gen.ReferenceIdeal.Read
import proofs.«174892_j30296699306039_1_alg».proof.Proof.Gen.Pre_finite_inputs
import proofs.«174892_j30296699306039_1_alg».proof.Proof.KernelValue
import proofs.«174892_j30296699306039_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the kernel program over the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the one function of the argument arrays, which agree. -/
theorem algebraic : Cert.algebraic_KernelIdeal_ReferenceIdeal := by
  intro m ρ m' ρ' _ hagree
  refine ⟨_, Cert.ModConv.Kernel.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v21_eq (F := Ideal) _ _ _ _ _).trans ?_
  rw [Cert.ModConv.Ref.result_eq, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
